-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000 : Shape := ⟨1, ![640000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S640000 : S_.BroadcastsInDim S640000 (![] : Fin 0 → Fin S640000.rank)
  reducesTo_S640000_S_d0 : S640000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S640000 32) (main_arg1 : IVec S640000 32) (main_arg2 : FVec F S640000 .f32) (main_arg3 : FVec F S100000x128 .f32) (main_arg4 : FVec F S128x128 .f32) (main_arg5 : FVec F S128 .f32) : IVec S_ 1 :=
  let main_v0 : FVec F S640000 .f32 := Host.absf main_arg2
  let main_cst : FVec F S_ .f32 := constant S_ .f32 0x7F800000#32
  let main_v1 : FVec F S640000 .f32 := broadcastInDim S640000 ![] bcast_S_S640000 main_cst
  let main_v2 : IVec S640000 1 := cmpf .olt main_v0 main_v1
  let main_c : IVec S_ 1 := constantI S_ 1 1#1
  let main_v3 : IVec S_ 1 := (fun x v => Host.reduce IntOp.andi x v reducesTo_S640000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S640000 : Shape := ⟨1, ![640000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S10000x128 : Shape := ⟨2, ![10000, 128]⟩
abbrev S10000x1 : Shape := ⟨2, ![10000, 1]⟩
abbrev S640000x128 : Shape := ⟨2, ![640000, 128]⟩
abbrev S1x128 : Shape := ⟨2, ![1, 128]⟩

abbrev nBuf : Space → Nat
  | .hbm => 30
  | .vmem => 14
  | .smem => 0
  | _ => 0

abbrev bufTy : (tb : Table) → Fin (tcTables nBuf tb) → BufTy
  | .hbm, ⟨0, _⟩ => ⟨S640000, .i32⟩
  | .hbm, ⟨1, _⟩ => ⟨S640000, .i32⟩
  | .hbm, ⟨2, _⟩ => ⟨S640000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S100000, .f32⟩
  | .hbm, ⟨8, _⟩ => ⟨S640000x1, .i32⟩
  | .hbm, ⟨9, _⟩ => ⟨S100000, .f32⟩
  | .hbm, ⟨10, _⟩ => ⟨S100000x1, .f32⟩
  | .hbm, ⟨11, _⟩ => ⟨S100000x128, .f32⟩
  | .hbm, ⟨12, _⟩ => ⟨S640000x1, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S1x128, .f32⟩
  | .hbm, ⟨29, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | _, _ => ⟨S640000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S10000x1_S10000x128 : S10000x1.Broadcasts S10000x128
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S640000x1_S640000_n_0_0_1_wf : ScatterDims.WF S100000 S640000x1 S640000 [] [0] [0] 1
  dot_S10000x128_S128x128_S10000x128_1_0_0_1_n_n_wf : DotDims.WF S10000x128 S128x128 S10000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg3) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S640000 : Shape := ⟨1, ![640000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S640000, .i32⟩
  | .hbm, ⟨1, _⟩ => ⟨S640000, .i32⟩
  | .hbm, ⟨2, _⟩ => ⟨S640000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S640000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S100000x128, .f32⟩
  | .hbm, ⟨17, _⟩ => ⟨S100000x128, .f32⟩
  | .hbm, ⟨18, _⟩ => ⟨S640000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S100000x128, .f32⟩
  | .hbm, ⟨32, _⟩ => ⟨S640000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | _, _ => ⟨S640000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.Spec.lean ====
/-
  The layer as functions of whole arrays, at the ideal values.

  With deg the weighted degree of every node (the edge weights added up by source row), the layer is
      y   = rsqrt (deg + 1) * (x w)                 (`scaled`: row r of x w scaled by row r's factor)
      a   = the edge-weighted sum, by source row, of the rows of y picked by the edges' target column (`aggregate`)
      out = rsqrt (deg + 1) * a + bias              (`biased`).
  `scaled` and `biased` are stated entry by entry; `degree` and `aggregate` are the host's scatter-adds and gather, which
  both programs apply to the same operands and which are therefore never opened.
-/
import proofs.«107809_j15899968930134_1_alg».proof.Proof.Gen.KernelIdeal
import Idealize.ShloMosaic.Lib.ValueIdx
import Idealize.ShloMosaic.Lib.Pipeline.Value
import Idealize.ShloMosaic.PureOps.Ideal.Laws

noncomputable section

open scoped BigOperators

namespace Cert.KernelIdeal.Spec

open Idealize.ShloMosaic Idealize.ShloMosaic.ValueIdx Cert.KernelIdeal
open Cert.KernelIdeal.Facts₀ Cert.KernelIdeal.Facts

/-- The scaled product, entry by entry: rsqrt (deg r + 1) * sum over k of x (r, k) * w (k, j). -/
def scaled (X : S100000x128.Idx → Elt Ideal .f32) (W : S128x128.Idx → Elt Ideal .f32) (D : S100000x1.Idx → Elt Ideal .f32) :
    S100000x128.Idx → Elt Ideal .f32 :=
  fun i => Ideal.rsqrt (D (ix2 (i 0) 0) + Ideal.ofBits .f32 0x3F800000#32) * ∑ k : Fin 128, X (ix2 (i 0) k) * W (ix2 k (i 1))

/-- The scaled aggregate plus the bias, entry by entry: rsqrt (deg r + 1) * a (r, j) + b j. -/
def biased (A : S100000x128.Idx → Elt Ideal .f32) (D : S100000x1.Idx → Elt Ideal .f32) (B : S1x128.Idx → Elt Ideal .f32) :
    S100000x128.Idx → Elt Ideal .f32 :=
  fun i => Ideal.rsqrt (D (ix2 (i 0) 0) + Ideal.ofBits .f32 0x3F800000#32) * A i + B (ix2 0 (i 1))

/-- `scaled` at the entry (r, q). -/
theorem scaled_apply (X : S100000x128.Idx → Elt Ideal .f32) (W : S128x128.Idx → Elt Ideal .f32) (D : S100000x1.Idx → Elt Ideal .f32)
    (r : Fin 100000) (q : Fin 128) :
    scaled X W D (ix2 r q)
      = Ideal.rsqrt (D (ix2 r 0) + Ideal.ofBits .f32 0x3F800000#32) * ∑ k : Fin 128, X (ix2 r k) * W (ix2 k q) := rfl

/-- `biased` at the entry (r, q). -/
theorem biased_apply (A : S100000x128.Idx → Elt Ideal .f32) (D : S100000x1.Idx → Elt Ideal .f32) (B : S1x128.Idx → Elt Ideal .f32)
    (r : Fin 100000) (q : Fin 128) :
    biased A D B (ix2 r q) = Ideal.rsqrt (D (ix2 r 0) + Ideal.ofBits .f32 0x3F800000#32) * A (ix2 r q) + B (ix2 0 q) := rfl

/-- The weighted degree of every node: the edge weights added up by source row, from zero. -/
def degree (row : (⟨S640000, .i32⟩ : BufTy).Contents (Elt Ideal)) (vals : (⟨S640000, .f32⟩ : BufTy).Contents (Elt Ideal)) :
    (⟨S100000, .f32⟩ : BufTy).Contents (Elt Ideal) :=
  Host.scatterAdd scatter_S100000_S640000x1_S640000_n_0_0_1
    (broadcastInDim S100000 ![] bcast_S_S100000 (constant (F := Ideal) S_ .f32 0x00000000#32))
    (broadcastInDim S640000x1 ![0] bcast_S640000_S640000x1_0 row) vals

/-- The degrees as a column. -/
def degCol (row : (⟨S640000, .i32⟩ : BufTy).Contents (Elt Ideal)) (vals : (⟨S640000, .f32⟩ : BufTy).Contents (Elt Ideal)) :
    (⟨S100000x1, .f32⟩ : BufTy).Contents (Elt Ideal) :=
  shapeCast S100000x1 (degree row vals) shapeCasts_S100000_S100000x1

/-- The bias as a row. -/
def biasRow (bias : (⟨S128, .f32⟩ : BufTy).Contents (Elt Ideal)) : (⟨S1x128, .f32⟩ : BufTy).Contents (Elt Ideal) :=
  shapeCast S1x128 bias shapeCasts_S128_S1x128

/-- The aggregation over the edges: row `row e` of the result collects `vals e` times row `col e` of `Y` (a negative
    column index counted from the end), from zero. -/
def aggregate (Y : (⟨S100000x128, .f32⟩ : BufTy).Contents (Elt Ideal)) (row col : (⟨S640000, .i32⟩ : BufTy).Contents (Elt Ideal))
    (vals : (⟨S640000, .f32⟩ : BufTy).Contents (Elt Ideal)) : (⟨S100000x128, .f32⟩ : BufTy).Contents (Elt Ideal) :=
  Host.scatterAdd scatter_S100000x128_S640000x1_S640000x128_1_0_0_1
    (broadcastInDim S100000x128 ![] bcast_S_S100000x128 (constant (F := Ideal) S_ .f32 0x00000000#32))
    (broadcastInDim S640000x1 ![0] bcast_S640000_S640000x1_0 row)
    (mulf
      (broadcastInDim S640000x128 ![0, 1] bcast_S640000x1_S640000x128_0_1
        (broadcastInDim S640000x1 ![0] bcast_S640000_S640000x1_0 vals))
      (Host.gather gather_S100000x128_S640000x1_S640000x128_1_0_n_n_0_1_1128 Y
        (broadcastInDim S640000x1 ![0] bcast_S640000_S640000x1_0
          (select
            (cmpi CmpIPredicate.slt col (broadcastInDim S640000 ![] bcast_S_S640000 (constantI S_ 32 0#32)))
            (addi col (broadcastInDim S640000 ![] bcast_S_S640000 (constantI S_ 32 100000#32)))
            col))))

/-- The whole layer. -/
def result (row col : (⟨S640000, .i32⟩ : BufTy).Contents (Elt Ideal)) (vals : (⟨S640000, .f32⟩ : BufTy).Contents (Elt Ideal))
    (X : (⟨S100000x128, .f32⟩ : BufTy).Contents (Elt Ideal)) (W : (⟨S128x128, .f32⟩ : BufTy).Contents (Elt Ideal))
    (bias : (⟨S128, .f32⟩ : BufTy).Contents (Elt Ideal)) : (⟨S100000x128, .f32⟩ : BufTy).Contents (Elt Ideal) :=
  biased (aggregate (scaled X W (degCol row vals)) row col vals) (degCol row vals) (biasRow bias)

/-- The degree column at row r is node r's degree. -/
theorem degCol_apply (row : (⟨S640000, .i32⟩ : BufTy).Contents (Elt Ideal)) (vals : (⟨S640000, .f32⟩ : BufTy).Contents (Elt Ideal))
    (r : Fin 100000) : degCol row vals (ix2 r 0) = degree row vals (ix1 r) := by
  unfold degCol
  generalize degree row vals = d
  exact shapeCast_apply d shapeCasts_S100000_S100000x1 (ix2 r 0) (ix1 r) (by
    rw [Shape.rowMajor_val_one, Shape.rowMajor_val_two]; show r.val = r.val * 1 + 0; omega)

/-- The bias row at channel q is the bias's entry q. -/
theorem biasRow_apply (bias : (⟨S128, .f32⟩ : BufTy).Contents (Elt Ideal)) (q : Fin 128) :
    biasRow bias (ix2 0 q) = bias (ix1 q) := by
  unfold biasRow
  exact shapeCast_apply bias shapeCasts_S128_S1x128 (ix2 0 q) (ix1 q) (by
    rw [Shape.rowMajor_val_one, Shape.rowMajor_val_two]; show q.val = 0 * 128 + q.val; omega)

end Cert.KernelIdeal.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Body.lean ====
/-
  The two kernel bodies at the ideal values, entry by entry.

  The first body scales a block of the product of the node features with the weights: entry (p, q) of what it
  stores is rsqrt(deg p + 1) times the sum over k of x (p, k) * w (k, q); the two roundings to bf16 are the identity on
  ideal values, and the matrix product into the zero accumulator is that plain sum.
  The second body scales an aggregated block and adds the bias row: entry (p, q) is rsqrt(deg p + 1) * a (p, q) + b q.
-/
import proofs.«107809_j15899968930134_1_alg».proof.Proof.Gen.KernelIdeal.Skeleton
import proofs.«107809_j15899968930134_1_alg».proof.Proof.LibDot
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- A degree column broadcast along the channels reads its row's entry. -/
theorem bcast_col (v : FVec Ideal S10000x1 .f32) (p : Fin 10000) (q : Fin 128) :
    broadcastTo S10000x128 v broadcasts_S10000x1_S10000x128 (ix2 p q) = v (ix2 p 0) :=
  broadcastTo_apply v broadcasts_S10000x1_S10000x128 (ix2 p q) (ix2 p 0) (fun a => by
    match a with
    | ⟨0, _⟩ => show p.val = if (10000 : Nat) = 1 then 0 else p.val; rw [if_neg (by decide)]
    | ⟨1, _⟩ => show 0 = if (1 : Nat) = 1 then 0 else q.val; rw [if_pos rfl])

/-- A bias row broadcast along the nodes reads its channel's entry. -/
theorem bcast_row (v : FVec Ideal S1x128 .f32) (p : Fin 10000) (q : Fin 128) :
    broadcastTo S10000x128 v broadcasts_S1x128_S10000x128 (ix2 p q) = v (ix2 0 q) :=
  broadcastTo_apply v broadcasts_S1x128_S10000x128 (ix2 p q) (ix2 0 q) (fun a => by
    match a with
    | ⟨0, _⟩ => show 0 = if (1 : Nat) = 1 then 0 else p.val; rw [if_pos rfl]
    | ⟨1, _⟩ => show q.val = if (128 : Nat) = 1 then 0 else q.val; rw [if_neg (by decide)])

/-- The first body's stored value at entry (p, q). -/
theorem pay0_apply (d : Vec Ideal S10000x1 .f32) (x : Vec Ideal S10000x128 .f32) (w : Vec Ideal S128x128 .f32)
    (p : Fin 10000) (q : Fin 128) :
    k0_pay1 (F := Ideal) d x w (ix2 p q)
      = Ideal.rsqrt (d (ix2 p 0) + Ideal.ofBits .f32 0x3F800000#32) * ∑ k : Fin 128, x (ix2 p k) * w (ix2 k q) := by
  unfold k0_pay1
  rw [mulf_apply, bcast_col, LibDot.matmul_10_zero_apply _ rfl rfl rfl rfl rfl rfl, shapeCast_self]
  rfl

/-- The second body's stored value at entry (p, q). -/
theorem pay1_apply (d : Vec Ideal S10000x1 .f32) (a : Vec Ideal S10000x128 .f32) (b : Vec Ideal S1x128 .f32)
    (p : Fin 10000) (q : Fin 128) :
    k1_pay1 (F := Ideal) d a b (ix2 p q)
      = Ideal.rsqrt (d (ix2 p 0) + Ideal.ofBits .f32 0x3F800000#32) * a (ix2 p q) + b (ix2 0 q) := by
  unfold k1_pay1
  rw [addf_apply, mulf_apply, bcast_col, bcast_row, shapeCast_self, shapeCast_self, shapeCast_self]
  rfl

end Cert.KernelIdeal.Body

end
-- ==== Proof.Region0.lean ====
/-
  The first pallas_call as one function of the arrays it finds.

  The grid has ten points; point t reads rows [10000 t, 10000 t + 10000) of the node features and of the degree
  column, all of the weights, and writes the same rows of its result. So whatever the three arrays hold when the region
  is entered, the result array ends holding, at (r, j),
      rsqrt (deg (r, 0) + 1) * sum over k of x (r, k) * w (k, j):
  each point writes its block of that one function, and the ten blocks cover the array.
-/
import proofs.«107809_j15899968930134_1_alg».proof.Proof.Gen.KernelIdeal.Frame
import proofs.«107809_j15899968930134_1_alg».proof.Proof.Body
import proofs.«107809_j15899968930134_1_alg».proof.Proof.Spec

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Spec

/-- The body's stored value at any entry of its block. -/
theorem pay_at (d : Vec Ideal S10000x1 .f32) (x : Vec Ideal S10000x128 .f32) (w : Vec Ideal S128x128 .f32) (j : S10000x128.Idx) :
    k0_pay1 (F := Ideal) d x w j
      = Ideal.rsqrt (d (ix2 (j 0) 0) + Ideal.ofBits .f32 0x3F800000#32) * ∑ k : Fin 128, x (ix2 (j 0) k) * w (ix2 k (j 1)) := by
  obtain ⟨p, q, rfl⟩ : ∃ (p : Fin 10000) (q : Fin 128), j = ix2 p q := ⟨j 0, j 1, eq_ix2 j⟩
  exact Body.pay0_apply d x w p q

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block is the point's number, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is its block of the scaled product of the arrays as the region finds them. -/
theorem flushed_eq (c : Dev nD) (t : Fin cfg0.N) :
    (dat0 V c).flushed 3 t
      = ((cfg0.win 3).blk t).view.read (Elt Ideal) (scaled (V c main_arg3) (V c main_arg4) (V c main_v3)) := by
  show (cfg0.win 3).cut (grid0.coords t) ((dat0 V c).after 3 t) = _
  rw [after0_3]
  unfold out0_3
  rw [View.canon_unit_zero hz]
  simp only [View.ld_unit_zero (S := S10000x1) hz, View.ld_unit_zero (S := S10000x128) hz, View.ld_unit_zero (S := S128x128) hz]
  obtain ⟨e00, e01, e10, e11, e20, e21, e30, e31⟩ := idx_facts t
  funext j
  show k0_pay1 (F := Ideal) (iblk0 V c 2 t) (iblk0 V c 0 t) (iblk0 V c 1 t) j
    = scaled (V c main_arg3) (V c main_arg4) (V c main_v3) (((cfg0.win 3).blk t).view.emb j)
  refine (pay_at _ _ _ j).trans ?_
  have h2 : iblk0 V c 2 t (ix2 (j 0) 0) = V c main_v3 (ix2 ((((cfg0.win 3).blk t).view.emb j) 0) 0) := by
    show V c main_v3 (((cfg0.win 2).blk t).view.emb (ix2 (j 0) 0)) = _
    refine congrArg _ (funext fun a => Fin.ext ?_)
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega
  have h0 : ∀ k : Fin 128, iblk0 V c 0 t (ix2 (j 0) k) = V c main_arg3 (ix2 ((((cfg0.win 3).blk t).view.emb j) 0) k) := fun k => by
    show V c main_arg3 (((cfg0.win 0).blk t).view.emb (ix2 (j 0) k)) = _
    refine congrArg _ (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have h1 : ∀ k : Fin 128, iblk0 V c 1 t (ix2 k (j 1)) = V c main_arg4 (ix2 k ((((cfg0.win 3).blk t).view.emb j) 1)) := fun k => by
    show V c main_arg4 (((cfg0.win 1).blk t).view.emb (ix2 k (j 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  unfold scaled
  rw [h2]
  exact congrArg _ (Finset.sum_congr rfl fun k _ => by rw [h0 k, h1 k])

/-- An entry is in point t's block iff each coordinate is in the block's range on its axis. -/
theorem mem_blk (t : Fin cfg0.N) (i : S100000x128.Idx) :
    i ∈ ((cfg0.win 3).blk t).view.set
      ↔ ∀ a : Fin 2, win0_3.index t a * S10000x128.size a ≤ (i a).val ∧ (i a).val < win0_3.index t a * S10000x128.size a + S10000x128.size a := by
  show i ∈ ((View.whole main_v4).slice (win0_3.rect t)).set ↔ _
  rw [View.set_slice_whole, Rect.mem_set_unit]
  exact Iff.rfl

/-- Every entry of the result is in some point's block: row r belongs to point r / 10000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the region: the scaled product of the arrays the region was entered with. -/
theorem final (c : Dev nD) :
    (dat0 V c).arrAt 3 cfg0.N = scaled (V c main_arg3) (V c main_arg4) (V c main_v3) :=
  (dat0 V c).arrAt_eq_of_cover 3 _ (fun t _ => flushed_eq V c t) cover

end Cert.KernelIdeal.Region0

end
-- ==== Proof.Region1.lean ====
/-
  The second pallas_call as one function of the arrays it finds.

  The grid has ten points; point t reads rows [10000 t, 10000 t + 10000) of the aggregate and of the degree column,
  the whole bias row, and writes the same rows of its result. So whatever the three arrays hold when the region is
  entered, the result array ends holding, at (r, j),  rsqrt (deg (r, 0) + 1) * a (r, j) + b (0, j):
  each point writes its block of that one function, and the ten blocks cover the array.
-/
import proofs.«107809_j15899968930134_1_alg».proof.Proof.Gen.KernelIdeal.Frame
import proofs.«107809_j15899968930134_1_alg».proof.Proof.Body
import proofs.«107809_j15899968930134_1_alg».proof.Proof.Spec

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Spec

/-- The body's stored value at any entry of its block. -/
theorem pay_at (d : Vec Ideal S10000x1 .f32) (a : Vec Ideal S10000x128 .f32) (b : Vec Ideal S1x128 .f32) (j : S10000x128.Idx) :
    k1_pay1 (F := Ideal) d a b j
      = Ideal.rsqrt (d (ix2 (j 0) 0) + Ideal.ofBits .f32 0x3F800000#32) * a j + b (ix2 0 (j 1)) := by
  obtain ⟨p, q, rfl⟩ : ∃ (p : Fin 10000) (q : Fin 128), j = ix2 p q := ⟨j 0, j 1, eq_ix2 j⟩
  exact Body.pay1_apply d a b p q

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block is the point's number, every other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is its block of the biased scaling of the arrays as the region finds them. -/
theorem flushed_eq (c : Dev nD) (t : Fin cfg1.N) :
    (dat1 V c).flushed 3 t
      = ((cfg1.win 3).blk t).view.read (Elt Ideal) (biased (V c main_v17) (V c main_v3) (V c main_v18)) := by
  show (cfg1.win 3).cut (grid1.coords t) ((dat1 V c).after 3 t) = _
  rw [after1_3]
  unfold out1_3
  rw [View.canon_unit_zero hz]
  simp only [View.ld_unit_zero (S := S10000x1) hz, View.ld_unit_zero (S := S10000x128) hz, View.ld_unit_zero (S := S1x128) hz]
  obtain ⟨e00, e01, e10, e11, e20, e21, e30, e31⟩ := idx_facts t
  funext j
  show k1_pay1 (F := Ideal) (iblk1 V c 1 t) (iblk1 V c 0 t) (iblk1 V c 2 t) j
    = biased (V c main_v17) (V c main_v3) (V c main_v18) (((cfg1.win 3).blk t).view.emb j)
  refine (pay_at _ _ _ j).trans ?_
  have h1 : iblk1 V c 1 t (ix2 (j 0) 0) = V c main_v3 (ix2 ((((cfg1.win 3).blk t).view.emb j) 0) 0) := by
    show V c main_v3 (((cfg1.win 1).blk t).view.emb (ix2 (j 0) 0)) = _
    refine congrArg _ (funext fun a => Fin.ext ?_)
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  have h0 : iblk1 V c 0 t j = V c main_v17 (((cfg1.win 3).blk t).view.emb j) := by
    show V c main_v17 (((cfg1.win 0).blk t).view.emb j) = _
    refine congrArg _ (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * (j 1).val = win1_3.index t (1 : Fin 2) * 128 + 1 * (j 1).val; omega
  have h2 : iblk1 V c 2 t (ix2 0 (j 1)) = V c main_v18 (ix2 0 ((((cfg1.win 3).blk t).view.emb j) 1)) := by
    show V c main_v18 (((cfg1.win 2).blk t).view.emb (ix2 0 (j 1))) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  unfold biased
  rw [h1, h0, h2]

/-- An entry is in point t's block iff each coordinate is in the block's range on its axis. -/
theorem mem_blk (t : Fin cfg1.N) (i : S100000x128.Idx) :
    i ∈ ((cfg1.win 3).blk t).view.set
      ↔ ∀ a : Fin 2, win1_3.index t a * S10000x128.size a ≤ (i a).val ∧ (i a).val < win1_3.index t a * S10000x128.size a + S10000x128.size a := by
  show i ∈ ((View.whole main_v19).slice (win1_3.rect t)).set ↔ _
  rw [View.set_slice_whole, Rect.mem_set_unit]
  exact Iff.rfl

/-- Every entry of the result is in some point's block: row r belongs to point r / 10000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, -, -, e30, e31⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The result array after the region: the biased scaling of the arrays the region was entered with. -/
theorem final (c : Dev nD) :
    (dat1 V c).arrAt 3 cfg1.N = biased (V c main_v17) (V c main_v3) (V c main_v18) :=
  (dat1 V c).arrAt_eq_of_cover 3 _ (fun t _ => flushed_eq V c t) cover

end Cert.KernelIdeal.Region1

end
-- ==== Proof.KernelValue.lean ====
/-
  What the kernel's program leaves in its result buffer, as the layer's function of the six arguments.

  The buffer contents at the boundaries between the program's stretches are a fold from the launch memory. Walking it
  back: the second region's result array is `biased` of the three arrays that region is entered with; of those, the
  aggregate is the host's scatter-add over the first region's result array, which is `scaled` of the features, the
  weights and the degree column; the degree column is the host's first scatter-add, untouched by the first region (it
  only reads it) and by the host operations in between; the bias row is a reshape of the bias. No argument is written
  on the way.
-/
import proofs.«107809_j15899968930134_1_alg».proof.Proof.Gen.KernelIdeal.Frame
import proofs.«107809_j15899968930134_1_alg».proof.Proof.Spec
import proofs.«107809_j15899968930134_1_alg».proof.Proof.Region0
import proofs.«107809_j15899968930134_1_alg».proof.Proof.Region1
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe
open Idealize.SL Idealize.SL.Sem
open Idealize.ShloMosaic.Pipeline (Dat Cfg Window)
open Cert.KernelIdeal.Spec

variable (m : (ℓ : Loc nD τ sig) → Buf (Elt Ideal) ℓ) (ρ : Dev nD → PrngReg)

/-! ## The first region's entry contents -/

theorem V1_arg3 (c : Dev nD) : V1 m ρ c main_arg3 = m ((c : Thread nD τ).loc main_arg3) := by
  show StableHlo.after hostOps0 (W0 m ρ c) (Proc.devRef .tc main_arg3) = _
  after_results

theorem V1_arg4 (c : Dev nD) : V1 m ρ c main_arg4 = m ((c : Thread nD τ).loc main_arg4) := by
  show StableHlo.after hostOps0 (W0 m ρ c) (Proc.devRef .tc main_arg4) = _
  after_results

/-- The degree column as the first region finds it. -/
theorem V1_v3 (c : Dev nD) :
    V1 m ρ c main_v3 = degCol (m ((c : Thread nD τ).loc main_arg0)) (m ((c : Thread nD τ).loc main_arg2)) := by
  show StableHlo.after hostOps0 (W0 m ρ c) (Proc.devRef .tc main_v3) = _
  after_results
  rfl

/-! ## The first region's exit contents -/

/-- A buffer that is no array of the first region and that no host operation before it writes still holds its
    launch contents at that region's exit. -/
theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-- The degree column is an input of the first region: it leaves the region as it entered. -/
theorem W2_v3 (c : Dev nD) :
    W2 m ρ c (Proc.devRef .tc main_v3) = degCol (m ((c : Thread nD τ).loc main_arg0)) (m ((c : Thread nD τ).loc main_arg2)) :=
  (W2_arr m ρ c 2).trans (((dat0 (V1 m ρ) c).arrAt_in 2 rfl _).trans ((A_eq0 (V1 m ρ) c 2).trans (V1_v3 m ρ c)))

/-- The first region's result array: the scaled product of the features and the weights. -/
theorem W2_v4 (c : Dev nD) :
    W2 m ρ c (Proc.devRef .tc main_v4)
      = scaled (m ((c : Thread nD τ).loc main_arg3)) (m ((c : Thread nD τ).loc main_arg4))
          (degCol (m ((c : Thread nD τ).loc main_arg0)) (m ((c : Thread nD τ).loc main_arg2))) :=
  (W2_arr m ρ c 3).trans ((Region0.final (V1 m ρ) c).trans (by rw [V1_arg3, V1_arg4, V1_v3]))

/-! ## The second region's entry contents -/

/-- The aggregate as the second region finds it. -/
theorem V3_v17 (c : Dev nD) :
    V3 m ρ c main_v17
      = aggregate (scaled (m ((c : Thread nD τ).loc main_arg3)) (m ((c : Thread nD τ).loc main_arg4))
            (degCol (m ((c : Thread nD τ).loc main_arg0)) (m ((c : Thread nD τ).loc main_arg2))))
          (m ((c : Thread nD τ).loc main_arg0)) (m ((c : Thread nD τ).loc main_arg1)) (m ((c : Thread nD τ).loc main_arg2)) := by
  show StableHlo.after hostOps1 (W2 m ρ c) (Proc.devRef .tc main_v17) = _
  after_results
  rw [W2_v4, W2_arg0, W2_arg1, W2_arg2]
  rfl

theorem V3_v3 (c : Dev nD) :
    V3 m ρ c main_v3 = degCol (m ((c : Thread nD τ).loc main_arg0)) (m ((c : Thread nD τ).loc main_arg2)) := by
  show StableHlo.after hostOps1 (W2 m ρ c) (Proc.devRef .tc main_v3) = _
  after_results
  exact W2_v3 m ρ c

theorem V3_v18 (c : Dev nD) : V3 m ρ c main_v18 = biasRow (m ((c : Thread nD τ).loc main_arg5)) := by
  show StableHlo.after hostOps1 (W2 m ρ c) (Proc.devRef .tc main_v18) = _
  after_results
  rw [W2_arg5]
  rfl

/-! ## The result buffer at the last boundary -/

theorem W4_result (c : Dev nD) :
    W4 m ρ c (Proc.devRef .tc main_v19)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (W4_arr m ρ c 3).trans ((Region1.final (V3 m ρ) c).trans (by rw [V3_v17, V3_v3, V3_v18]; rfl))

end Cert.KernelIdeal.KernelValue

end
-- ==== Proof.RefValue.lean ====
/-
  The reference's result as the layer's function of the six arguments.

  The reference computes the same layer with host operations only. Its degree and its aggregation are the very
  scatter-adds and gather the kernel's program applies, on the same operands, so they are matched as they stand; what is
  read entry by entry is the rest: the product of the features and the weights as a sum over the contracted channel,
  scaled by rsqrt (deg + 1) broadcast along the channels (`scaled`), and the final scaling plus the bias broadcast along
  the nodes (`biased`).
-/
import proofs.«107809_j15899968930134_1_alg».proof.Proof.Gen.ReferenceIdeal.Read
import proofs.«107809_j15899968930134_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

variable (x0 x1 : (⟨S640000, .i32⟩ : BufTy).Contents (Elt Ideal)) (x2 : (⟨S640000, .f32⟩ : BufTy).Contents (Elt Ideal))
  (x3 : (⟨S100000x128, .f32⟩ : BufTy).Contents (Elt Ideal)) (x4 : (⟨S128x128, .f32⟩ : BufTy).Contents (Elt Ideal)) (x5 : (⟨S128, .f32⟩ : BufTy).Contents (Elt Ideal))

/-- The reference's degree is the layer's. -/
theorem degree_eq : val_main_v3 (F := Ideal) x0 x2 = Cert.KernelIdeal.Spec.degree x0 x2 := rfl

/-- The reference's aggregation is the layer's, applied to the reference's scaled product. -/
theorem aggregate_eq :
    val_main_v22 (F := Ideal) x0 x1 x2 x3 x4
      = Cert.KernelIdeal.Spec.aggregate (val_main_v9 (F := Ideal) x0 x2 x3 x4) x0 x1 x2 := rfl

/-- The reference's scaled product, entry by entry. -/
theorem scaled_eq :
    val_main_v9 (F := Ideal) x0 x2 x3 x4
      = Cert.KernelIdeal.Spec.scaled x3 x4 (Cert.KernelIdeal.Spec.degCol x0 x2) := by
  funext i
  obtain ⟨r, q, rfl⟩ : ∃ (r : Fin 100000) (q : Fin 128), i = ix2 r q := ⟨i 0, i 1, eq_ix2 i⟩
  rw [val_main_v9_apply, val_main_v8_apply, val_main_v7_apply, val_main_v6_apply, val_main_v5_apply, val_main_v4_apply,
    val_main_cst_0_apply, val_main_v0_apply, degree_eq]
  rw [Cert.KernelIdeal.Spec.scaled_apply, Cert.KernelIdeal.Spec.degCol_apply]
  have e1 : idx_main_v7 (idx_main_v8 (ix2 r q)) = ix1 r := funext fun a => Fin.ext (by match a with | ⟨0, _⟩ => rfl)
  have e2 : ∀ k : Fin 128, lidx_main_v0 (ix2 r q) k = ix2 r k := fun k => funext fun a => Fin.ext (by
    match a with
    | ⟨0, _⟩ => rfl
    | ⟨1, _⟩ => rfl)
  have e3 : ∀ k : Fin 128, ridx_main_v0 (ix2 r q) k = ix2 k q := fun k => funext fun a => Fin.ext (by
    match a with
    | ⟨0, _⟩ => rfl
    | ⟨1, _⟩ => rfl)
  simp only [e1, e2, e3, Ideal.mulf_def, Ideal.addf_def, Ideal.hostUnary_rsqrt_def, Ideal.ofBits_def]

/-- The reference's last two operations on any aggregate, entry by entry. -/
theorem biased_eq (A : (⟨S100000x128, .f32⟩ : BufTy).Contents (Elt Ideal)) :
    (addf (mulf (val_main_v24 (F := Ideal) x0 x2) A) (val_main_v27 (F := Ideal) x5) : FVec Ideal S100000x128 .f32)
      = Cert.KernelIdeal.Spec.biased A (Cert.KernelIdeal.Spec.degCol x0 x2) (Cert.KernelIdeal.Spec.biasRow x5) := by
  funext i
  obtain ⟨r, q, rfl⟩ : ∃ (r : Fin 100000) (q : Fin 128), i = ix2 r q := ⟨i 0, i 1, eq_ix2 i⟩
  rw [addf_apply, mulf_apply, val_main_v24_apply, val_main_v23_apply, val_main_v6_apply, val_main_v5_apply, val_main_v4_apply,
    val_main_cst_0_apply, val_main_v27_apply, val_main_v26_apply, degree_eq]
  rw [Cert.KernelIdeal.Spec.biased_apply, Cert.KernelIdeal.Spec.degCol_apply, Cert.KernelIdeal.Spec.biasRow_apply]
  have e1 : idx_main_v23 (idx_main_v24 (ix2 r q)) = ix1 r := funext fun a => Fin.ext (by match a with | ⟨0, _⟩ => rfl)
  have e2 : idx_main_v26 (idx_main_v27 (ix2 r q)) = ix1 q := funext fun a => Fin.ext (by match a with | ⟨0, _⟩ => rfl)
  simp only [e1, e2, Ideal.mulf_def, Ideal.addf_def, Ideal.hostUnary_rsqrt_def, Ideal.ofBits_def]

/-- The reference's result is the layer. -/
theorem result_eq :
    val_main_v28 (F := Ideal) x0 x1 x2 x3 x4 x5 = Cert.KernelIdeal.Spec.result x0 x1 x2 x3 x4 x5 := by
  unfold val_main_v28 val_main_v25
  rw [aggregate_eq, scaled_eq, biased_eq]
  rfl

end Cert.ReferenceIdeal.RefValue

end
-- ==== Proof.lean ====
/-
  A graph-convolution layer: out = D (A (D (X W))) + bias, with A the sparse matrix of the edge weights `vals` at
  (row, col), deg its row sums and D = rsqrt (deg + 1) on the diagonal.

  The kernel's program computes deg with a host scatter-add, D (X W) in a first pallas_call over ten blocks of 10000
  nodes (the operands rounded to bf16 before the matrix product, which is the identity on ideal values), the aggregation
  over the edges with a host gather and scatter-add, and D (·) + bias in a second pallas_call over the same ten blocks.
  The reference computes the same with host operations only. Both apply the same scatter-adds and the same gather to
  the same operands, so the claim comes down to two entry-by-entry facts: a block of the first call's result is
  rsqrt (deg r + 1) * sum over k of x (r, k) w (k, j), which is the reference's broadcast scaling of its dot_general;
  and a block of the second call's result is rsqrt (deg r + 1) * a (r, j) + b j, which is the reference's last
  multiplication and addition. No law of the extended reals beyond these readings is used, so finiteness of the inputs
  is never opened.

  Modules: Spec (the layer as functions of whole arrays), Body (the two kernel bodies entry by entry), Region0 and
  Region1 (each pallas_call's result array as one function of the arrays it finds), KernelRun (the kernel program's
  run with the result buffer named), KernelValue (that buffer walked back to the six arguments), RefValue (the
  reference's result as the same function).
-/
import proofs.«107809_j15899968930134_1_alg».proof.Defs
import proofs.«107809_j15899968930134_1_alg».proof.Proof.Gen.Kernel
import proofs.«107809_j15899968930134_1_alg».proof.Proof.Gen.Kernel.Frame
import proofs.«107809_j15899968930134_1_alg».proof.Proof.Gen.KernelIdeal
import proofs.«107809_j15899968930134_1_alg».proof.Proof.Gen.KernelIdeal.Frame
import proofs.«107809_j15899968930134_1_alg».proof.Proof.Gen.ReferenceIdeal
import proofs.«107809_j15899968930134_1_alg».proof.Proof.Gen.ReferenceIdeal.Run
import proofs.«107809_j15899968930134_1_alg».proof.Proof.Gen.ReferenceIdeal.Read
import proofs.«107809_j15899968930134_1_alg».proof.Proof.Gen.Pre_finite_inputs
import proofs.«107809_j15899968930134_1_alg».proof.Proof.KernelRun
import proofs.«107809_j15899968930134_1_alg».proof.Proof.KernelValue
import proofs.«107809_j15899968930134_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer's function of the six arguments in their result buffers. -/
theorem algebraic : Cert.algebraic_KernelIdeal_ReferenceIdeal := by
  intro m ρ m' ρ' _ hagree
  refine ⟨fun c => Cert.KernelIdeal.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.W4_result m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
